-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x32x32 : Shape := ⟨4, ![8, 256, 32, 32]⟩
abbrev S8192x256 : Shape := ⟨2, ![8192, 256]⟩
abbrev S8192 : Shape := ⟨1, ![8192]⟩
abbrev S_ : Shape := ⟨0, ![]⟩

class Facts : Prop where
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8x256x32x32 .f32) (main_arg1 : FVec F S8192x256 .f32) (main_arg2 : FVec F S8192 .f32) : IVec S_ 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_c : IVec S_ 1 := constantI S_ 1 1#1
  let main_v3 : IVec S_ 1 := (fun x v => Host.reduce IntOp.andi x v reducesTo_S8x256x32x32_S_d0_1_2_3 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8x256x32x32 : Shape := ⟨4, ![8, 256, 32, 32]⟩
abbrev S8192x256 : Shape := ⟨2, ![8192, 256]⟩
abbrev S8192 : Shape := ⟨1, ![8192]⟩
abbrev S8x32x32x256 : Shape := ⟨4, ![8, 32, 32, 256]⟩
abbrev S1x8192 : Shape := ⟨2, ![1, 8192]⟩
abbrev S8192x8192 : Shape := ⟨2, ![8192, 8192]⟩
abbrev S256x256 : Shape := ⟨2, ![256, 256]⟩
abbrev S256x8192 : Shape := ⟨2, ![256, 8192]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S8x256x32x32, .f32⟩
  | .hbm, ⟨1, _⟩ => ⟨S8192x256, .f32⟩
  | .hbm, ⟨2, _⟩ => ⟨S8192, .f32⟩
  | .hbm, ⟨3, _⟩ => ⟨S8x32x32x256, .f32⟩
  | .hbm, ⟨4, _⟩ => ⟨S8192x256, .f32⟩
  | .hbm, ⟨5, _⟩ => ⟨S1x8192, .f32⟩
  | .hbm, ⟨6, _⟩ => ⟨S8192x8192, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S1x8192, .f32⟩
  | .local _ .vmem, ⟨4, _⟩ => ⟨S256x8192, .f32⟩
  | .local _ .vmem, ⟨5, _⟩ => ⟨S256x8192, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8x256x32x32_S8x32x32x256_0_2_3_1 : S8x256x32x32.Transposes [0, 2, 3, 1] S8x32x32x256
  shapeCasts_S8x32x32x256_S8192x256 : S8x32x32x256.ShapeCasts S8192x256
  shapeCasts_S8192_S1x8192 : S8192.ShapeCasts S1x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  reduces_S256x8192_S256 : S256x8192.Reduces [1] S256
  shapeCasts_S256_S256x1 : S256.ShapeCasts S256x1
  broadcasts_S256x1_S256x8192 : S256x1.Broadcasts S256x8192
  inb_S256x8192_S256x8192_0_0 : ∀ a, (![0, 0] : Fin 2 → Nat) a + S256x8192.size a ≤ S256x8192.size a
  h_S256x8192 : 0 < S256x8192.numel
  dot_S256x256_S8192x256_S256x8192_1_1_0_0_n_n_wf : DotDims.WF S256x256 S8192x256 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S8192x8192.size a
  hwx0_3 : ∀ i : grid0.Coords, EltTy.bits .f32 = 32 ∨ (Rect.block (s := S8192x8192) S256x8192.size (cc0_transform_3 i) (hinb0_3 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_v1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x32x32 : Shape := ⟨4, ![8, 256, 32, 32]⟩
abbrev S8192x256 : Shape := ⟨2, ![8192, 256]⟩
abbrev S8192 : Shape := ⟨1, ![8192]⟩
abbrev S8x32x32x256 : Shape := ⟨4, ![8, 32, 32, 256]⟩
abbrev S256x8192 : Shape := ⟨2, ![256, 8192]⟩
abbrev S8192x8192 : Shape := ⟨2, ![8192, 8192]⟩
abbrev S1x8192 : Shape := ⟨2, ![1, 8192]⟩
abbrev S_ : Shape := ⟨0, ![]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S8192x256, .f32⟩
  | .hbm, ⟨2, _⟩ => ⟨S8192, .f32⟩
  | .hbm, ⟨3, _⟩ => ⟨S8x32x32x256, .f32⟩
  | .hbm, ⟨4, _⟩ => ⟨S8192x256, .f32⟩
  | .hbm, ⟨5, _⟩ => ⟨S256x8192, .f32⟩
  | .hbm, ⟨6, _⟩ => ⟨S8192x8192, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  transposes_S8x256x32x32_S8x32x32x256_0_2_3_1 : S8x256x32x32.Transposes [0, 2, 3, 1] S8x32x32x256
  shapeCasts_S8x32x32x256_S8192x256 : S8x32x32x256.ShapeCasts S8192x256
  transposes_S8192x256_S256x8192_1_0 : S8192x256.Transposes [1, 0] S256x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Softmax.lean ====
/-
  The function both programs compute, stated once over the extended reals.

  A token row `x` (256 coordinates), the dictionary `W` (8192 atoms of 256 coordinates each) and the bias `b` give
  the row's 8192 logits `⟨x, W q⟩ + b q`. The row's result is the softmax of its logits in the shifted form both
  programs write: with `M` the largest logit of the row — the fold of `max` over the row, started from `-∞` —
  entry `q` is `exp (ℓ q - M)` over the sum of those exponentials along the row. Nothing is simplified here: the
  shift by `M` stays, and the quotient is the extended reals' `Ideal.div`. The two programs are therefore set side
  by side term by term, no law of arithmetic is used, and so nothing is asked of the inputs.
-/
import Idealize.ShloMosaic.PureOps.Ideal
import Idealize.ShloMosaic.Lib.ValueIdx

noncomputable section

namespace Cert.Softmax

open Idealize.ShloMosaic Idealize.ShloMosaic.ValueIdx

/-- What the f32 word of `-∞` denotes: the value a row's maximum is folded from. -/
abbrev negInf : EReal := Ideal.ofBits .f32 0xFF800000#32

/-- The largest of a row's logits: the fold of `max` over the row from `-∞`. -/
def rowMax (ℓ : Fin 8192 → EReal) : EReal := (Finset.univ : Finset (Fin 8192)).fold max negInf ℓ

/-- A logit shifted by the row's maximum, exponentiated. -/
def shifted (ℓ : Fin 8192 → EReal) (q : Fin 8192) : EReal := Ideal.exp (ℓ q - rowMax ℓ)

/-- The softmax of a row of logits at entry `q`: the shifted exponential over the row's sum of them. -/
def softRow (ℓ : Fin 8192 → EReal) (q : Fin 8192) : EReal := Ideal.div (shifted ℓ q) (∑ q' : Fin 8192, shifted ℓ q')

/-- Logit `q` of a token row `x`: its inner product with atom `q` of the dictionary, plus the atom's bias. -/
def logit (x : Fin 256 → EReal) (W : (⟨2, ![8192, 256]⟩ : Shape).Idx → EReal) (b : Fin 8192 → EReal) (q : Fin 8192) : EReal :=
  (∑ k : Fin 256, x k * W (ix2 q k)) + b q

/-- The whole result: entry `(r, q)` is the softmax, at `q`, of the logits of row `r` of the token matrix `X`. -/
def G (X W : (⟨2, ![8192, 256]⟩ : Shape).Idx → EReal) (b : Fin 8192 → EReal) : (⟨2, ![8192, 8192]⟩ : Shape).Idx → EReal :=
  fun i => softRow (logit (fun k => X (ix2 (i 0) k)) W b) (i 1)

/-- `-∞` is the identity of `max` on the extended reals. -/
theorem max_negInf (y : EReal) : max negInf y = y := by
  show max (Ideal.ofBits .f32 0xFF800000#32) y = y
  simp [Ideal.ofBits, Ideal.ieee]

end Cert.Softmax

end
-- ==== Proof.LibKeepdims.lean ====
/-
  A reduction along the rows of a matrix kept as a column (`keepdims=True`) and spread back over the matrix, read at
  an index. A row reduction of an `[a, b]` matrix is an `[a]` vector; `keepdims` casts it to a column `[a, 1]`, and
  the arithmetic that follows broadcasts the column to `[a, b]`. Read at `(p, c)` the result is the vector at `p`,
  whatever the column `c`. Beside that: the index a row reduction inserts — the reduced index `p` with the column
  `k` put back on axis 1 — is `(p, k)`. General in the extents and in the element type; nothing here depends on a
  kernel.
-/
import Idealize.ShloMosaic.Lib.Pipeline.Value
import Idealize.ShloMosaic.Lib.ValueIdx
import Idealize.ShloMosaic.PureOps.Reduce

namespace Idealize.ShloMosaic.Keepdims

open Idealize.ShloMosaic Idealize.ShloMosaic.ValueIdx

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and spread over the matrix reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The index a reduction along the rows inserts: the reduced index `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims
-- ==== Proof.Payload.lean ====
/-
  What one grid point computes, read at an index.

  The body takes a block of 256 token rows `x0`, the whole dictionary `x1` and the bias as a one-row matrix `x2`,
  and stores one block of the result. Its arithmetic has two halves. The logits: the product of the block with the
  dictionary, both contracted along their 256 coordinates, into a zero accumulator, plus the bias row spread down the
  256 rows. Then the softmax along each row: the row's largest logit and, after the shift and the exponential, the
  row's sum, each a reduction along the row kept as a column and spread back over the row. Read at `(p, q)` the first
  half is `Softmax.logit` of row `p` of the block, and the second `Softmax.softRow` of the row's logits: a matrix
  product into zero is the plain sum of products, a reduction along a row is the fold, or the sum, over the row's
  entries, and a column spread over a row reads the column.
-/
import proofs.«141856_g61091614818895_cont_9to1_m_919_2_alg».proof.Proof.Gen.KernelIdeal.Skeleton
import proofs.«141856_g61091614818895_cont_9to1_m_919_2_alg».proof.Proof.Softmax
import proofs.«141856_g61091614818895_cont_9to1_m_919_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Idealize.ShloMosaic.Keepdims
open Cert.Softmax

/-! ## The product of a block of token rows with the dictionary -/

/-- The product's left operand is read at the output's row … -/
theorem lhs_row (i : S256x8192.Idx) (q : dot_S256x256_S8192x256_S256x8192_1_1_0_0_n_n.contr.Idx) :
    (dot_S256x256_S8192x256_S256x8192_1_1_0_0_n_n.lhsIdx i q 0).val = (i 0).val := by
  unfold DotDims.lhsIdx
  rw [dif_neg (show ¬(0 : Fin S256x256.rank) ∈ dot_S256x256_S8192x256_S256x8192_1_1_0_0_n_n.lhsBatch by decide), dif_pos (show (0 : Fin S256x256.rank) ∈ dot_S256x256_S8192x256_S256x8192_1_1_0_0_n_n.lhsNonContracting by decide)]
  rfl
/-- … and at the contracted coordinate; -/
theorem lhs_coord (i : S256x8192.Idx) (q : dot_S256x256_S8192x256_S256x8192_1_1_0_0_n_n.contr.Idx) :
    (dot_S256x256_S8192x256_S256x8192_1_1_0_0_n_n.lhsIdx i q 1).val = (q ⟨0, by decide⟩).val :=
  dot_S256x256_S8192x256_S256x8192_1_1_0_0_n_n.lhsIdx_val_of_single rfl i q
/-- the right operand, the dictionary, at the atom the output's column names … -/
theorem rhs_atom (i : S256x8192.Idx) (q : dot_S256x256_S8192x256_S256x8192_1_1_0_0_n_n.contr.Idx) :
    (dot_S256x256_S8192x256_S256x8192_1_1_0_0_n_n.rhsIdx i q 0).val = (i 1).val := by
  unfold DotDims.rhsIdx
  rw [dif_neg (show ¬(0 : Fin S8192x256.rank) ∈ dot_S256x256_S8192x256_S256x8192_1_1_0_0_n_n.rhsBatch by decide), dif_pos (show (0 : Fin S8192x256.rank) ∈ dot_S256x256_S8192x256_S256x8192_1_1_0_0_n_n.rhsNonContracting by decide)]
  rfl
/-- … and at the contracted coordinate. -/
theorem rhs_coord (i : S256x8192.Idx) (q : dot_S256x256_S8192x256_S256x8192_1_1_0_0_n_n.contr.Idx) :
    (dot_S256x256_S8192x256_S256x8192_1_1_0_0_n_n.rhsIdx i q 1).val = (q ⟨0, by decide⟩).val :=
  dot_S256x256_S8192x256_S256x8192_1_1_0_0_n_n.rhsIdx_val_of_single rfl i q

/-- The product into a zero accumulator, at `(p, q)`: the inner product of row `p` of the block with atom `q`. -/
theorem product_at (x : FVec Ideal S256x256 .f32) (w : FVec Ideal S8192x256 .f32) (p : Fin 256) (q : Fin 8192) :
    matmul dot_S256x256_S8192x256_S256x8192_1_1_0_0_n_n none x w (constant (F := Ideal) S256x8192 .f32 0x00000000#32) (ix2 p q)
      = ∑ k : Fin 256, x (ix2 p k) * w (ix2 q k) := by
  simp only [matmul]
  rw [Ideal.matmul_constant_zero_apply, ← Equiv.sum_comp (ValueIdx.contrEquiv1 dot_S256x256_S8192x256_S256x8192_1_1_0_0_n_n 256 rfl rfl).symm]
  refine Finset.sum_congr rfl fun k _ => ?_
  have hk := ValueIdx.contrEquiv1_symm_val dot_S256x256_S8192x256_S256x8192_1_1_0_0_n_n 256 rfl rfl k
  have el : dot_S256x256_S8192x256_S256x8192_1_1_0_0_n_n.lhsIdx (ix2 p q) ((ValueIdx.contrEquiv1 dot_S256x256_S8192x256_S256x8192_1_1_0_0_n_n 256 rfl rfl).symm k) = ix2 p k := funext fun a => Fin.ext (by
    match a with
    | ⟨0, _⟩ => exact lhs_row _ _
    | ⟨1, _⟩ => exact (lhs_coord _ _).trans hk)
  have er : dot_S256x256_S8192x256_S256x8192_1_1_0_0_n_n.rhsIdx (ix2 p q) ((ValueIdx.contrEquiv1 dot_S256x256_S8192x256_S256x8192_1_1_0_0_n_n 256 rfl rfl).symm k) = ix2 q k := funext fun a => Fin.ext (by
    match a with
    | ⟨0, _⟩ => exact rhs_atom _ _
    | ⟨1, _⟩ => exact (rhs_coord _ _).trans hk)
  rw [el, er]

/-! ## The body's two halves, named -/

/-- The block's logits as the body forms them: the product plus the bias row spread down the rows. -/
def logitsVec (x0 : FVec Ideal S256x256 .f32) (x1 : FVec Ideal S8192x256 .f32) (x2 : FVec Ideal S1x8192 .f32) : FVec Ideal S256x8192 .f32 :=
  addf (matmul dot_S256x256_S8192x256_S256x8192_1_1_0_0_n_n none (shapeCast S256x256 x0 shapeCasts_S256x256_S256x256) x1 (constant (F := Ideal) S256x8192 .f32 0x00000000#32))
    (broadcastTo S256x8192 (shapeCast S1x8192 x2 shapeCasts_S1x8192_S1x8192) broadcasts_S1x8192_S256x8192)

/-- Each row's largest logit, kept as a column and spread back over the row. -/
def maxCol (L : FVec Ideal S256x8192 .f32) : FVec Ideal S256x8192 .f32 :=
  broadcastTo S256x8192 (shapeCast S256x1 (multiReduction (F := Ideal) .maximumf [1] S256 L 0xFF800000#32 reduces_S256x8192_S256 (.inl rfl) rfl) shapeCasts_S256_S256x1) broadcasts_S256x1_S256x8192

/-- The logits shifted by their row's maximum, exponentiated. -/
def expVec (L : FVec Ideal S256x8192 .f32) : FVec Ideal S256x8192 .f32 := exp (subf L (maxCol L))

/-- Each row's sum, kept as a column and spread back over the row. -/
def sumCol (E : FVec Ideal S256x8192 .f32) : FVec Ideal S256x8192 .f32 :=
  broadcastTo S256x8192 (shapeCast S256x1 (multiReduction (F := Ideal) .add [1] S256 E 0x00000000#32 reduces_S256x8192_S256 (.inl rfl) rfl) shapeCasts_S256_S256x1) broadcasts_S256x1_S256x8192

/-- The softmax along the rows, as the body forms it from the logits. -/
def softVec (L : FVec Ideal S256x8192 .f32) : FVec Ideal S256x8192 .f32 := divf (expVec L) (sumCol (expVec L))

/-- The stored value is the softmax along the rows of the logits: the body's operations, in its order. -/
theorem pay_eq (x0 : FVec Ideal S256x256 .f32) (x1 : FVec Ideal S8192x256 .f32) (x2 : FVec Ideal S1x8192 .f32) :
    k0_pay1 (F := Ideal) x0 x1 x2 = softVec (logitsVec x0 x1 x2) := rfl

/-! ## The two halves at an index -/

/-- A row's maximum column reads, anywhere in row `p`, the fold of `max` over the row from `-∞`. -/
theorem maxCol_at (L : FVec Ideal S256x8192 .f32) (p : Fin 256) (c : Fin 8192) :
    maxCol L (ix2 p c) = rowMax (fun q => L (ix2 p q)) := by
  unfold maxCol
  refine (keepdims_apply _ shapeCasts_S256_S256x1 broadcasts_S256x1_S256x8192 p c).trans ?_
  refine (Ideal.multiReduction_maximumf_single L 0xFF800000#32 reduces_S256x8192_S256 (.inl rfl) rfl (ix1 p)).trans ?_
  have hf : (L ∘ reduces_S256x8192_S256.lift (ix1 p)) = fun q : Fin 8192 => L (ix2 p q) :=
    funext fun k => congrArg L (lift_row reduces_S256x8192_S256 p k)
  exact congrArg (fun f => Finset.fold max negInf f (Finset.univ : Finset (Fin 8192))) hf

/-- A row's sum column reads, anywhere in row `p`, the sum over the row. -/
theorem sumCol_at (E : FVec Ideal S256x8192 .f32) (p : Fin 256) (c : Fin 8192) :
    sumCol E (ix2 p c) = ∑ q : Fin 8192, E (ix2 p q) := by
  unfold sumCol
  refine (keepdims_apply _ shapeCasts_S256_S256x1 broadcasts_S256x1_S256x8192 p c).trans ?_
  refine (Ideal.multiReduction_add_single E 0x00000000#32 reduces_S256x8192_S256 (.inl rfl) rfl (ix1 p)).trans ?_
  exact Finset.sum_congr rfl fun k _ => congrArg E (lift_row reduces_S256x8192_S256 p k)

/-- The shifted exponential at `(p, c)`. -/
theorem expVec_at (L : FVec Ideal S256x8192 .f32) (p : Fin 256) (c : Fin 8192) :
    expVec L (ix2 p c) = shifted (fun q => L (ix2 p q)) c := by
  unfold expVec shifted
  show Ideal.exp (L (ix2 p c) - maxCol L (ix2 p c)) = _
  rw [maxCol_at]

/-- The softmax along the rows at `(p, q)` is the softmax of row `p`'s logits at `q`. -/
theorem soft_at (L : FVec Ideal S256x8192 .f32) (p : Fin 256) (q : Fin 8192) :
    softVec L (ix2 p q) = softRow (fun q' => L (ix2 p q')) q := by
  unfold softVec softRow
  show Ideal.div (expVec L (ix2 p q)) (sumCol (expVec L) (ix2 p q)) = _
  rw [sumCol_at, expVec_at]
  exact congrArg (Ideal.div _) (Finset.sum_congr rfl fun c _ => expVec_at L p c)

/-- The logits at `(p, q)`: row `p` of the block against atom `q`, plus the atom's bias. -/
theorem logits_at (x0 : FVec Ideal S256x256 .f32) (x1 : FVec Ideal S8192x256 .f32) (x2 : FVec Ideal S1x8192 .f32) (p : Fin 256) (q : Fin 8192) :
    logitsVec x0 x1 x2 (ix2 p q) = logit (fun k => x0 (ix2 p k)) x1 (fun c => x2 (ix2 (0 : Fin 1) c)) q := by
  unfold logitsVec logit
  show matmul dot_S256x256_S8192x256_S256x8192_1_1_0_0_n_n none (shapeCast S256x256 x0 shapeCasts_S256x256_S256x256) x1 (constant (F := Ideal) S256x8192 .f32 0x00000000#32) (ix2 p q)
      + broadcastTo S256x8192 (shapeCast S1x8192 x2 shapeCasts_S1x8192_S1x8192) broadcasts_S1x8192_S256x8192 (ix2 p q) = _
  rw [shapeCast_self, shapeCast_self, product_at, broadcastTo_1b_ab_apply]

/-- What the point stores, at `(p, q)` of its block: the softmax, at `q`, of the logits of row `p` of the token block. -/
theorem pay_at (x0 : FVec Ideal S256x256 .f32) (x1 : FVec Ideal S8192x256 .f32) (x2 : FVec Ideal S1x8192 .f32) (p : Fin 256) (q : Fin 8192) :
    k0_pay1 (F := Ideal) x0 x1 x2 (ix2 p q)
      = softRow (logit (fun k => x0 (ix2 p k)) x1 (fun c => x2 (ix2 (0 : Fin 1) c))) q := by
  rw [pay_eq, soft_at]
  exact congrArg (fun ℓ => softRow ℓ q) (funext fun c => logits_at x0 x1 x2 p c)

end Cert.KernelIdeal.Payload

end
-- ==== Proof.Blocks.lean ====
/-
  From the blocks to the array.

  The grid has 32 points. Point `t` is handed rows `256 t … 256 t + 255` of the token matrix, the whole dictionary and
  the whole bias row, and writes back rows `256 t … 256 t + 255` of the result, all 8192 columns. What it writes at
  `(p, q)` of its block is the softmax, at `q`, of the logits of row `p` of its token block (Payload.lean) — that is,
  entry `(256 t + p, q)` of `Softmax.G` of the token matrix, the dictionary and the bias: a row's softmax depends on
  that row alone, so cutting the rows into blocks changes nothing. Every row `r` lies in exactly the block of point
  `r / 256`, so the 32 blocks cover the array, and the array ends holding `Softmax.G`.

  The token matrix and the bias row are arrays the program's host operations wrote before the call: the input with its
  channel axis moved last and flattened to 8192 rows, and the bias viewed as one row. They are read here as the call
  finds them, and spelt out over the program's arguments at the end.
-/
import proofs.«141856_g61091614818895_cont_9to1_m_919_2_alg».proof.Proof.Gen.KernelIdeal.Value
import proofs.«141856_g61091614818895_cont_9to1_m_919_2_alg».proof.Proof.Payload
import proofs.«141856_g61091614818895_cont_9to1_m_919_2_alg».proof.Proof.Softmax
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Blocks

open Cert.KernelIdeal Cert.KernelIdeal.Gen Cert.KernelIdeal.Value Cert.KernelIdeal.Payload
open Idealize.ShloMosaic Idealize.ShloMosaic.TcCoe Idealize.SL.Sem Idealize.ShloMosaic.ValueIdx Cert.Softmax
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Which block each window shows a point -/

/-- Point `t` sees block `t` of the token rows and of the result's rows, and the one block of the dictionary and of
    the bias row (decided over the 32 points). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The token block at point `t` is rows `256 t … 256 t + 255` of the token matrix. -/
theorem tokens_block (c : Dev nD) (t : Fin cfg0.N) (x : S256x256.Idx) (k : S8192x256.Idx)
    (hk0 : (k 0).val = 256 * t.val + (x 0).val) (hk1 : (k 1).val = (x 1).val) :
    (iblk m c 0 t : Vec Ideal S256x256 .f32) x = (V m c main_v1 : S8192x256.Idx → Elt Ideal .f32) k := by
  obtain ⟨e0, e1, -⟩ := idx_facts t
  unfold iblk
  rw [View.read_apply]
  show V m c main_v1 _ = V m c main_v1 _
  congr 1
  funext a
  apply Fin.ext
  match a with
  | ⟨0, _⟩ => show win0_0.index t 0 * 256 + 1 * (x 0).val = (k 0).val; rw [e0, hk0]; omega
  | ⟨1, _⟩ => show win0_0.index t 1 * 256 + 1 * (x 1).val = (k 1).val; rw [e1, hk1]; omega

/-- The dictionary's block at any point is the dictionary. -/
theorem dict_block (c : Dev nD) (t : Fin cfg0.N) (x : S8192x256.Idx) :
    (iblk m c 1 t : Vec Ideal S8192x256 .f32) x = (V m c main_arg1 : S8192x256.Idx → Elt Ideal .f32) x := by
  obtain ⟨-, -, e2, e3, -⟩ := idx_facts t
  unfold iblk
  rw [View.read_apply]
  show V m c main_arg1 _ = V m c main_arg1 _
  congr 1
  funext a
  apply Fin.ext
  match a with
  | ⟨0, _⟩ => show win0_1.index t 0 * 8192 + 1 * (x 0).val = (x 0).val; rw [e2]; omega
  | ⟨1, _⟩ => show win0_1.index t 1 * 256 + 1 * (x 1).val = (x 1).val; rw [e3]; omega

/-- The bias row's block at any point is the bias row. -/
theorem bias_block (c : Dev nD) (t : Fin cfg0.N) (x : S1x8192.Idx) :
    (iblk m c 2 t : Vec Ideal S1x8192 .f32) x = (V m c main_v2 : S1x8192.Idx → Elt Ideal .f32) x := by
  obtain ⟨-, -, -, -, e4, e5, -⟩ := idx_facts t
  unfold iblk
  rw [View.read_apply]
  show V m c main_v2 _ = V m c main_v2 _
  congr 1
  funext a
  apply Fin.ext
  match a with
  | ⟨0, _⟩ => show win0_2.index t 0 * 1 + 1 * (x 0).val = (x 0).val; rw [e4]; omega
  | ⟨1, _⟩ => show win0_2.index t 1 * 8192 + 1 * (x 1).val = (x 1).val; rw [e5]; omega

/-! ## What a point writes is its rows of the whole result -/

/-- Over any arrays: if the token block `x0` is rows `256 n …` of `X`, and `x1`, `x2` are `W` and the one-row `B`,
    then the stored value at `j` of the block is `Softmax.G X W B` at the array index `i` with `j`'s column and row
    `256 n + ` `j`'s row. -/
theorem pay_block (X W : S8192x256.Idx → EReal) (B : S1x8192.Idx → EReal)
    (x0 : FVec Ideal S256x256 .f32) (x1 : FVec Ideal S8192x256 .f32) (x2 : FVec Ideal S1x8192 .f32)
    (n : ℕ) (j : S256x8192.Idx) (i : S8192x8192.Idx)
    (hi0 : (i 0).val = 256 * n + (j 0).val) (hi1 : (i 1).val = (j 1).val)
    (h0 : ∀ (x : S256x256.Idx) (k : S8192x256.Idx), (k 0).val = 256 * n + (x 0).val → (k 1).val = (x 1).val → x0 x = X k)
    (h1 : ∀ x, x1 x = W x) (h2 : ∀ x, x2 x = B x) :
    k0_pay1 (F := Ideal) x0 x1 x2 j = G X W (fun q => B (ix2 (0 : Fin 1) q)) i := by
  obtain ⟨p, q, rfl⟩ : ∃ (p : Fin 256) (q : Fin 8192), j = ix2 p q := ⟨j 0, j 1, eq_ix2 j⟩
  rw [pay_at]
  unfold G
  have e0 : (fun k : Fin 256 => x0 (ix2 p k)) = fun k => X (ix2 (i 0) k) := funext fun k => h0 (ix2 p k) (ix2 (i 0) k) hi0 rfl
  have e1 : x1 = W := funext h1
  have e2 : (fun c : Fin 8192 => x2 (ix2 (0 : Fin 1) c)) = fun c => B (ix2 (0 : Fin 1) c) := funext fun c => h2 _
  have eq : i 1 = q := Fin.ext hi1
  rw [e0, e1, e2, eq]

/-- The result array, over the arrays as the call finds them. -/
abbrev result (c : Dev nD) : S8192x8192.Idx → EReal :=
  G (V m c main_v1 : S8192x256.Idx → Elt Ideal .f32) (V m c main_arg1 : S8192x256.Idx → Elt Ideal .f32)
    (fun q => (V m c main_v2 : S1x8192.Idx → Elt Ideal .f32) (ix2 (0 : Fin 1) q))

/-- What point `t` writes back is block `t` of `result`. -/
theorem flushed_eq (c : Dev nD) (t : Fin cfg0.N) :
    (dats m 0 c).flushed 3 t = ((cfg0.win 3).blk t).view.read (Elt Ideal) (result m c) := by
  obtain ⟨-, -, -, -, -, -, e6, e7⟩ := idx_facts t
  rw [Value.flushed3]
  unfold out0_3
  rw [View.canon_unit_zero hz]
  simp only [View.ld_unit_zero (S := S256x256) hz, View.ld_unit_zero (S := S8192x256) hz, View.ld_unit_zero (S := S1x8192) hz]
  funext j
  show k0_pay1 (F := Ideal) (iblk m c 0 t) (iblk m c 1 t) (iblk m c 2 t) j = result m c (((cfg0.win 3).blk t).view.emb j)
  refine pay_block (V m c main_v1) (V m c main_arg1) (V m c main_v2) (iblk m c 0 t) (iblk m c 1 t) (iblk m c 2 t) t.val j
    (((cfg0.win 3).blk t).view.emb j) ?_ ?_ (fun x k hk0 hk1 => tokens_block m c t x k hk0 hk1) (fun x => dict_block m c t x)
    (fun x => bias_block m c t x)
  · show win0_3.index t 0 * 256 + 1 * (j 0).val = 256 * t.val + (j 0).val; rw [e6]; omega
  · show win0_3.index t 1 * 8192 + 1 * (j 1).val = (j 1).val; rw [e7]; omega

/-! ## The blocks cover the array -/

/-- An index is in point `t`'s block of the result iff each coordinate is in the block's range on its axis. -/
theorem mem_block (t : Fin cfg0.N) (i : S8192x8192.Idx) :
    i ∈ ((cfg0.win 3).blk t).view.set ↔ ∀ a : Fin 2, win0_3.index t a * S256x8192.size a ≤ (i a).val
      ∧ (i a).val < win0_3.index t a * S256x8192.size a + S256x8192.size a := by
  show i ∈ ((View.whole main_v3).slice (win0_3.rect t)).set ↔ _
  rw [View.set_slice_whole, Rect.mem_set_unit]
  exact Iff.rfl

/-- Row `r` of the result lies in the block of point `r / 256`, which writes back. -/
theorem covered (i : S8192x8192.Idx) :
    ∃ t : Fin cfg0.N, (cfg0.win 3).flush t = true ∧ i ∈ ((cfg0.win 3).blk t).view.set := by
  have h0 : (i 0).val < 8192 := (i 0).isLt
  have h1 : (i 1).val < 8192 := (i 1).isLt
  obtain ⟨t, ht⟩ : ∃ t : Fin cfg0.N, t.val = (i 0).val / 256 :=
    ⟨⟨(i 0).val / 256, by have hN : grid0.N = 32 := N_0; show (i 0).val / 256 < grid0.N; omega⟩, rfl⟩
  obtain ⟨-, -, -, -, -, -, e6, e7⟩ := idx_facts t
  refine ⟨t, flush0_3 t, ?_⟩
  rw [mem_block]
  intro a
  match a with
  | ⟨0, _⟩ => show win0_3.index t 0 * 256 ≤ (i 0).val ∧ (i 0).val < win0_3.index t 0 * 256 + 256; rw [e6, ht]; omega
  | ⟨1, _⟩ => show win0_3.index t 1 * 8192 ≤ (i 1).val ∧ (i 1).val < win0_3.index t 1 * 8192 + 8192; rw [e7]; omega

/-- So the result array ends holding `result`. -/
theorem final (c : Dev nD) : (dats m 0 c).arrAt 3 cfg0.N = result m c :=
  (dats m 0 c).arrAt_eq_of_cover 3 (result m c) (fun t _ => flushed_eq m c t) covered

/-- The run, read: the result array at `result`, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

/-! ## The arrays the host operations wrote, over the arguments -/

/-- The token matrix as the call finds it: the input with its channel axis moved last, flattened to 8192 rows. -/
theorem tokens_eq (c : Dev nD) :
    (V m c main_v1 : S8192x256.Idx → Elt Ideal .f32)
      = shapeCast S8192x256 (transpose S8x32x32x256 [0, 2, 3, 1] (m ((c : Thread nD τ).loc main_arg0))
          transposes_S8x256x32x32_S8x32x32x256_0_2_3_1) shapeCasts_S8x32x32x256_S8192x256 := by
  dsimp only [Gen.V, Gen.hostOps0]; after_results; rfl

/-- The bias row as the call finds it, at column `q`: the bias at `q`. -/
theorem bias_at (c : Dev nD) (q : Fin 8192) :
    (V m c main_v2 : S1x8192.Idx → Elt Ideal .f32) (ix2 (0 : Fin 1) q)
      = (m ((c : Thread nD τ).loc main_arg2) : S8192.Idx → Elt Ideal .f32) (ix1 q) := by
  have e : (V m c main_v2 : S1x8192.Idx → Elt Ideal .f32)
      = shapeCast S1x8192 (m ((c : Thread nD τ).loc main_arg2)) shapeCasts_S8192_S1x8192 := by
    dsimp only [Gen.V, Gen.hostOps0]; after_results; rfl
  rw [e]
  exact shapeCast_a_1a_apply _ shapeCasts_S8192_S1x8192 0 q

/-- The result array over the program's arguments: `Softmax.G` of the input with its channel axis moved last and
    flattened to 8192 rows, the dictionary, and the bias. -/
theorem result_eq (c : Dev nD) :
    result m c = G (shapeCast S8192x256 (transpose S8x32x32x256 [0, 2, 3, 1] (m ((c : Thread nD τ).loc main_arg0))
          transposes_S8x256x32x32_S8x32x32x256_0_2_3_1) shapeCasts_S8x32x32x256_S8192x256)
        (m ((c : Thread nD τ).loc main_arg1))
        (fun q => (m ((c : Thread nD τ).loc main_arg2) : S8192.Idx → Elt Ideal .f32) (ix1 q)) := by
  show G _ _ _ = _
  rw [tokens_eq, V_main_arg1]
  exact congrArg (G _ _) (funext fun q => bias_at m c q)

end Cert.KernelIdeal.Blocks

end
-- ==== Proof.Reference.lean ====
/-
  The reference's result is the specification.

  The reference forms the same two halves on whole arrays. The logits: the token matrix (the input with its channel
  axis moved last, then flattened to 8192 rows) times the transposed dictionary, plus the bias spread down the rows.
  Then `jax.nn.softmax` along the rows: each row's maximum, folded from `-∞` and then once more combined with `-∞`
  by `max` — which changes nothing, `-∞` being the identity of `max` —, the shift, the exponential, the row's sum from
  `0`, and the quotient. The generated reading of the program gives every stage but the maximum at an index; the
  maximum, a reduction with a `max` body along one axis, is the fold of `max` over the row's entries. Entry `(r, q)`
  of the transposed dictionary is entry `(q, r)` of the dictionary, so the product's terms are those of
  `Softmax.logit`, in the same order. The token matrix itself is left unopened: the kernel's program computes the
  same matrix by the same two operations.
-/
import proofs.«141856_g61091614818895_cont_9to1_m_919_2_alg».proof.Proof.Gen.ReferenceIdeal.Read
import proofs.«141856_g61091614818895_cont_9to1_m_919_2_alg».proof.Proof.Softmax
import proofs.«141856_g61091614818895_cont_9to1_m_919_2_alg».proof.Proof.LibKeepdims
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Idealize.ShloMosaic.Keepdims Cert.Softmax

variable (z : (⟨S8x256x32x32, .f32⟩ : BufTy).Contents (Elt Ideal)) (W : (⟨S8192x256, .f32⟩ : BufTy).Contents (Elt Ideal))
  (b : (⟨S8192, .f32⟩ : BufTy).Contents (Elt Ideal))

/-- The rows of the logits array reduce to one entry each. -/
theorem reduces_rows : S8192x8192.Reduces [1] S8192 := by decide

/-- The logits at `(r, q)`: row `r` of the token matrix against atom `q` of the dictionary, plus the atom's bias. -/
theorem logits_at (r q : Fin 8192) :
    val_main_v6 (F := Ideal) z W b (ix2 r q)
      = logit (fun k => val_main_v1 (F := Ideal) z (ix2 r k)) W (fun c => b (ix1 c)) q := by
  rw [val_main_v6_apply, val_main_v3_apply, val_main_v5_apply, val_main_v4_apply]
  unfold logit
  show (∑ k : Fin 256, val_main_v1 (F := Ideal) z (lidx_main_v3 (ix2 r q) k) * val_main_v2 (F := Ideal) W (ridx_main_v3 (ix2 r q) k))
      + b (idx_main_v4 (idx_main_v5 (ix2 r q))) = _
  have hl : ∀ k : Fin 256, lidx_main_v3 (ix2 r q) k = ix2 r k := fun k => funext fun a => Fin.ext (by
    match a with | ⟨0, _⟩ => rfl | ⟨1, _⟩ => rfl)
  have hr : ∀ k : Fin 256, idx_main_v2 (ridx_main_v3 (ix2 r q) k) = ix2 q k := fun k => funext fun a => Fin.ext (by
    match a with | ⟨0, _⟩ => rfl | ⟨1, _⟩ => rfl)
  have hb : idx_main_v4 (idx_main_v5 (ix2 r q)) = ix1 q := funext fun a => Fin.ext (by
    match a with | ⟨0, _⟩ => rfl)
  simp only [val_main_v2_apply, hl, hr, hb]

/-- The row's maximum: the fold of `max` over the row from `-∞`; the further `max` with `-∞` changes nothing. -/
theorem max_at (r : Fin 8192) :
    val_main_v9 (F := Ideal) z W b (ix1 r) = rowMax (fun q => val_main_v6 (F := Ideal) z W b (ix2 r q)) := by
  rw [val_main_v9_apply, val_main_v8_apply, val_main_cst_0_apply]
  show max negInf (val_main_v7 (F := Ideal) z W b (ix1 r)) = _
  rw [max_negInf]
  unfold val_main_v7
  refine (Host.reduce_eq_fold_single (FloatOps.maximumf (F := Ideal) (φ := .f32)) (val_main_v6 (F := Ideal) z W b)
    (val_main_cst (F := Ideal)) reducesTo_S8192x8192_S8192_d1 reduces_rows h_S_ (ix1 r)).trans ?_
  have hf : (val_main_v6 (F := Ideal) z W b ∘ reduces_rows.lift (ix1 r)) = fun q : Fin 8192 => val_main_v6 (F := Ideal) z W b (ix2 r q) :=
    funext fun k => congrArg (val_main_v6 (F := Ideal) z W b) (lift_row reduces_rows r k)
  exact congrArg (fun f => Finset.fold max negInf f (Finset.univ : Finset (Fin 8192))) hf

/-- The shifted exponential at `(r, q)`. -/
theorem exp_at (r q : Fin 8192) :
    val_main_v13 (F := Ideal) z W b (ix2 r q) = shifted (fun c => val_main_v6 (F := Ideal) z W b (ix2 r c)) q := by
  rw [val_main_v13_apply, val_main_v12_apply, val_main_v11_apply, val_main_v10_apply]
  have hi : idx_main_v10 (idx_main_v11 (ix2 r q)) = ix1 r := funext fun a => Fin.ext (by
    match a with | ⟨0, _⟩ => rfl)
  rw [hi, max_at]
  rfl

/-- The result at `(r, q)`: the softmax of row `r`'s logits at `q` (the sum starts from `0`). -/
theorem result_at (r q : Fin 8192) :
    val_main_v17 (F := Ideal) z W b (ix2 r q) = softRow (fun c => val_main_v6 (F := Ideal) z W b (ix2 r c)) q := by
  rw [val_main_v17_apply, val_main_v16_apply, val_main_v15_apply]
  have hi : idx_main_v15 (idx_main_v16 (ix2 r q)) = ix1 r := funext fun a => Fin.ext (by
    match a with | ⟨0, _⟩ => rfl)
  rw [hi, val_main_v14_apply, val_main_cst_1_apply]
  have hs : ∀ k : Fin 8192, idx_main_v14 (ix1 r) k = ix2 r k := fun k => funext fun a => Fin.ext (by
    match a with | ⟨0, _⟩ => rfl | ⟨1, _⟩ => rfl)
  simp only [hs, exp_at, Ideal.ofBits_def, Ideal.ofBits_zero_f32, zero_add]
  rfl

/-- The reference's result array is `Softmax.G` of the token matrix, the dictionary and the bias. -/
theorem result_eq :
    val_main_v17 (F := Ideal) z W b = G (val_main_v1 (F := Ideal) z) W (fun c => b (ix1 c)) := by
  funext i
  obtain ⟨r, q, rfl⟩ : ∃ (r q : Fin 8192), i = ix2 r q := ⟨i 0, i 1, eq_ix2 i⟩
  rw [result_at]
  unfold G
  exact congrArg (fun ℓ => softRow ℓ q) (funext fun c => logits_at z W b r c)

end Cert.ReferenceIdeal.RefValue

end
-- ==== Proof.lean ====
/-
  The kernel and its reference compute one function, and the certificate says so over the extended reals.

  Both take a feature map `z` (8 images, 256 channels, 32 × 32 positions), a dictionary `W` of 8192 atoms with 256
  coordinates each and a bias `b`. Both move the channel axis of `z` last and flatten it into 8192 token rows of 256
  coordinates; both form, for every token row, its 8192 logits — the inner product with each atom plus the atom's
  bias — and take the softmax along the row in the shifted form: the exponential of each logit less the row's largest
  logit, over the row's sum of those exponentials (Softmax.lean states this function once, as `Softmax.G`).

  They differ only in arrangement. The kernel walks the rows in 32 blocks of 256, holding the whole dictionary and bias
  beside each block, multiplies the block by the dictionary contracted along its own coordinate axis, and reduces along
  each row inside the block; the reference transposes the dictionary first, multiplies all 8192 rows at once, and
  reduces along the rows of the whole 8192 × 8192 array — and, before the shift, combines each row's maximum once more
  with `-∞`, which leaves it as it is. A row's softmax depends on that row alone, the transposed dictionary at
  `(k, q)` is the dictionary at `(q, k)`, and a reduction along a row is the same fold, or sum, over the row's entries
  whichever program writes it: so entry by entry the two results are the same term (Payload.lean and Blocks.lean read
  the kernel's result, Reference.lean the reference's). No law of arithmetic joins them, so the finiteness of the
  inputs is never used.

  The three frames are the generated ones (the reference's is its run with the result dropped); the idealized kernel
  is the kernel's own text read over the extended reals, with no rewrite to account for.
-/
import proofs.«141856_g61091614818895_cont_9to1_m_919_2_alg».proof.Defs
import proofs.«141856_g61091614818895_cont_9to1_m_919_2_alg».proof.Proof.Gen.Kernel
import proofs.«141856_g61091614818895_cont_9to1_m_919_2_alg».proof.Proof.Gen.Kernel.Skeleton
import proofs.«141856_g61091614818895_cont_9to1_m_919_2_alg».proof.Proof.Gen.Kernel.Launch
import proofs.«141856_g61091614818895_cont_9to1_m_919_2_alg».proof.Proof.Gen.Kernel.Points
import proofs.«141856_g61091614818895_cont_9to1_m_919_2_alg».proof.Proof.Gen.Kernel.Frame
import proofs.«141856_g61091614818895_cont_9to1_m_919_2_alg».proof.Proof.Gen.KernelIdeal
import proofs.«141856_g61091614818895_cont_9to1_m_919_2_alg».proof.Proof.Gen.KernelIdeal.Skeleton
import proofs.«141856_g61091614818895_cont_9to1_m_919_2_alg».proof.Proof.Gen.KernelIdeal.Launch
import proofs.«141856_g61091614818895_cont_9to1_m_919_2_alg».proof.Proof.Gen.KernelIdeal.Points
import proofs.«141856_g61091614818895_cont_9to1_m_919_2_alg».proof.Proof.Gen.KernelIdeal.Frame
import proofs.«141856_g61091614818895_cont_9to1_m_919_2_alg».proof.Proof.Gen.ReferenceIdeal
import proofs.«141856_g61091614818895_cont_9to1_m_919_2_alg».proof.Proof.Gen.Pre_finite_inputs
import proofs.«141856_g61091614818895_cont_9to1_m_919_2_alg».proof.Proof.Gen.KernelIdeal.Value
import proofs.«141856_g61091614818895_cont_9to1_m_919_2_alg».proof.Proof.Gen.ReferenceIdeal.Run
import proofs.«141856_g61091614818895_cont_9to1_m_919_2_alg».proof.Proof.Gen.ReferenceIdeal.Read
import proofs.«141856_g61091614818895_cont_9to1_m_919_2_alg».proof.Proof.Blocks
import proofs.«141856_g61091614818895_cont_9to1_m_919_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference runs and leaves its arguments as they were: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten, so nothing is owed. -/
theorem preserves : Cert.preserves_Kernel_KernelIdeal := trivial

/-- From memories agreeing on `z`, `W` and `b`, both programs end with the result array at `Softmax.G` of the token
    matrix, the dictionary and the bias: the kernel's blocks cover the array with their rows of it (Blocks.lean), the
    reference's stages compose to it (Reference.lean), and the token matrix and the bias row the kernel's host
    operations wrote are the reference's, over the same arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq _ _ _).trans ((Cert.ReferenceIdeal.RefValue.result_eq _ _ _).trans ?_)
  rw [(hagree c).1, (hagree c).2.1, (hagree c).2.2]
  exact (Cert.KernelIdeal.Blocks.result_eq m c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
